-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S256x1 .f32
  ∧ IdealRules.sign_bit.Statement Cert.KernelIdeal.S256x1 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S128x8192 : Shape := ⟨2, ![128, 8192]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x8192 : S_.BroadcastsInDim S128x8192 (![] : Fin 0 → Fin S128x8192.rank)
  reducesTo_S128x8192_S_d0_1 : S128x8192.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x128 .f32) (main_arg1 : IVec S16384 32) (main_arg2 : FVec F S128x8192 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x8192 .f32 := Host.absf main_arg2
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 8192#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x128 : Shape := ⟨2, ![16384, 128]⟩
abbrev S16384 : Shape := ⟨1, ![16384]⟩
abbrev S128x8192 : Shape := ⟨2, ![128, 8192]⟩
abbrev S_ : Shape := ⟨0, ![]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S256x128 : Shape := ⟨2, ![256, 128]⟩
abbrev S256x1 : Shape := ⟨2, ![256, 1]⟩
abbrev S256x8192 : Shape := ⟨2, ![256, 8192]⟩
abbrev S256 : Shape := ⟨1, ![256]⟩

abbrev nBuf : Space → Nat
  | .hbm => 24
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S128x8192, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S128x8192, .f32⟩
  | .hbm, ⟨13, _⟩ => ⟨S_, .f32⟩
  | .hbm, ⟨14, _⟩ => ⟨S8192, .f32⟩
  | .hbm, ⟨15, _⟩ => ⟨S1x8192, .f32⟩
  | .hbm, ⟨16, _⟩ => ⟨S_, .f32⟩
  | .hbm, ⟨17, _⟩ => ⟨S1x8192, .f32⟩
  | .hbm, ⟨18, _⟩ => ⟨S1x8192, .f32⟩
  | .hbm, ⟨19, _⟩ => ⟨S1x8192, .f32⟩
  | .hbm, ⟨20, _⟩ => ⟨S128x8192, .f32⟩
  | .hbm, ⟨21, _⟩ => ⟨S128x8192, .f32⟩
  | .hbm, ⟨22, _⟩ => ⟨S128x8192, .bf16⟩
  | .hbm, ⟨23, _⟩ => ⟨S16384x8192, .f32⟩
  | .local _ .vmem, ⟨0, _⟩ => ⟨S256x128, .f32⟩
  | .local _ .vmem, ⟨1, _⟩ => ⟨S256x128, .f32⟩
  | .local _ .vmem, ⟨2, _⟩ => ⟨S256x1, .i32⟩
  | .local _ .vmem, ⟨3, _⟩ => ⟨S256x1, .i32⟩
  | .local _ .vmem, ⟨4, _⟩ => ⟨S128x8192, .bf16⟩
  | .local _ .vmem, ⟨5, _⟩ => ⟨S256x8192, .f32⟩
  | .local _ .vmem, ⟨6, _⟩ => ⟨S256x8192, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384 : S_.BroadcastsInDim S16384 (![] : Fin 0 → Fin S16384.rank)
  shapeCasts_S16384_S16384x1 : S16384.ShapeCasts S16384x1
  reducesTo_S128x8192_S8192_d0 : S128x8192.ReducesTo [0] S8192
  h_S_ : 0 < S_.numel
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S128x8192_0_1 : S1x8192.BroadcastsInDim S128x8192 (![0, 1] : Fin 2 → Fin S128x8192.rank)
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S256x128_S256 : S256x128.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x8192_d1_w32 : S256x8192.Iotas .tc 32 [1]
  broadcasts_S256x1_S256x8192 : S256x1.Broadcasts S256x8192
  reduces_S256x8192_S256 : S256x8192.Reduces [1] S256
  inb_S256x8192_S256x8192_0_0 : ∀ a, (![0, 0] : Fin 2 → Nat) a + S256x8192.size a ≤ S256x8192.size a
  h_S256x8192 : 0 < S256x8192.numel
  dot_S256x128_S128x8192_S256x8192_1_0_0_1_n_n_wf : DotDims.WF S256x128 S128x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .i32 = 32 ∨ (Rect.block (s := S16384x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x8192.size a
  hwx0_2 : ∀ i : grid0.Coords, EltTy.bits .bf16 = 32 ∨ (Rect.block (s := S128x8192) S128x8192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S16384x8192.size a
  hwx0_3 : ∀ i : grid0.Coords, EltTy.bits .f32 = 32 ∨ (Rect.block (s := S16384x8192) S256x8192.size (cc0_transform_3 i) (hinb0_3 i)).WholeWords (EltTy.packing .f32)

variable [Facts₀]

def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384 : Shape := ⟨1, ![16384]⟩
abbrev S128x8192 : Shape := ⟨2, ![128, 8192]⟩
abbrev S_ : Shape := ⟨0, ![]⟩
abbrev S8192 : Shape := ⟨1, ![8192]⟩
abbrev S1x8192 : Shape := ⟨2, ![1, 8192]⟩
abbrev S16384x8192 : Shape := ⟨2, ![16384, 8192]⟩
abbrev S16384x1 : Shape := ⟨2, ![16384, 1]⟩
abbrev S16384x2 : Shape := ⟨2, ![16384, 2]⟩

abbrev nBuf : Space → Nat
  | .hbm => 95
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S128x8192, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S128x8192, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S_, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S128x8192, .f32⟩
  | .hbm, ⟨16, _⟩ => ⟨S128x8192, .f32⟩
  | .hbm, ⟨17, _⟩ => ⟨S16384x8192, .f32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x1, .i32⟩
  | .hbm, ⟨35, _⟩ => ⟨S16384x2, .i32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S16384, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S16384, .f32⟩
  | .hbm, ⟨67, _⟩ => ⟨S16384, .f32⟩
  | .hbm, ⟨68, _⟩ => ⟨S16384, .f32⟩
  | .hbm, ⟨69, _⟩ => ⟨S16384, .f32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S_, .i32⟩
  | .hbm, ⟨78, _⟩ => ⟨S16384, .i32⟩
  | .hbm, ⟨79, _⟩ => ⟨S16384, .i1⟩
  | .hbm, ⟨80, _⟩ => ⟨S_, .i32⟩
  | .hbm, ⟨81, _⟩ => ⟨S16384, .i32⟩
  | .hbm, ⟨82, _⟩ => ⟨S16384, .i32⟩
  | .hbm, ⟨83, _⟩ => ⟨S16384, .i32⟩
  | .hbm, ⟨84, _⟩ => ⟨S16384x1, .i32⟩
  | .hbm, ⟨85, _⟩ => ⟨S16384x1, .i32⟩
  | .hbm, ⟨86, _⟩ => ⟨S16384x2, .i32⟩
  | .hbm, ⟨87, _⟩ => ⟨S16384x8192, .f32⟩
  | .hbm, ⟨88, _⟩ => ⟨S_, .f32⟩
  | .hbm, ⟨89, _⟩ => ⟨S16384x8192, .f32⟩
  | .hbm, ⟨90, _⟩ => ⟨S16384x8192, .f32⟩
  | .hbm, ⟨91, _⟩ => ⟨S_, .f32⟩
  | .hbm, ⟨92, _⟩ => ⟨S16384x8192, .f32⟩
  | .hbm, ⟨93, _⟩ => ⟨S16384x8192, .f32⟩
  | .hbm, ⟨94, _⟩ => ⟨S16384x8192, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  reducesTo_S128x8192_S8192_d0 : S128x8192.ReducesTo [0] S8192
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S128x8192_0_1 : S1x8192.BroadcastsInDim S128x8192 (![0, 1] : Fin 2 → Fin S128x8192.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  bcast_S_S16384x8192 : S_.BroadcastsInDim S16384x8192 (![] : Fin 0 → Fin S16384x8192.rank)
  dot_S16384x128_S128x8192_S16384x8192_1_0_0_1_n_n_wf : DotDims.WF S16384x128 S128x8192 S16384x8192 [1] [0] [0] [1] [] []
  gather_S16384x8192_S16384x2_S16384_n_01_n_n_01_1_11_wf : GatherDims.WF S16384x8192 S16384x2 S16384 [] [0, 1] [] [0, 1] [] 1 ![1, 1]
  scatter_S16384x8192_S16384x2_S16384_n_01_01_1_wf : ScatterDims.WF S16384x8192 S16384x2 S16384 [] [0, 1] [0, 1] 1

variable [Facts₀]

def dot_S16384x128_S128x8192_S16384x8192_1_0_0_1_n_n : DotDims S16384x128 S128x8192 S16384x8192 where
  lhsContracting := [1]
  rhsContracting := [0]
  lhsNonContracting := [0]
  rhsNonContracting := [1]
  lhsBatch := []
  rhsBatch := []
  wf := dot_S16384x128_S128x8192_S16384x8192_1_0_0_1_n_n_wf
def gather_S16384x8192_S16384x2_S16384_n_01_n_n_01_1_11 : GatherDims S16384x8192 S16384x2 S16384 where
  offsetDims := []
  collapsedSliceDims := [0, 1]
  operandBatchingDims := []
  startIndicesBatchingDims := []
  startIndexMap := [0, 1]
  indexVectorDim := 1
  sliceSizes := ![1, 1]
  wf := gather_S16384x8192_S16384x2_S16384_n_01_n_n_01_1_11_wf
def scatter_S16384x8192_S16384x2_S16384_n_01_01_1 : ScatterDims S16384x8192 S16384x2 S16384 where
  updateWindowDims := []
  insertedWindowDims := [0, 1]
  scatterDimsToOperandDims := [0, 1]
  indexVectorDim := 1
  wf := scatter_S16384x8192_S16384x2_S16384_n_01_01_1_wf

class Facts : Prop extends Facts₀ where

variable [Facts]
-- ==== Proof.Pre.lean ====
/-
  What the precondition says, entry by entry: every embedding and every weight is a real number (neither infinity),
  and every label, read as a signed integer, lies in the class range 0 <= y_r < 8192.
-/
import proofs.«408463_j64055142252613_3_alg».proof.Pre_finite_inputs
import Idealize.ShloMosaic.PureOps.Ideal
import Idealize.ShloMosaic.Lib.ReduceAll
import Idealize.ShloMosaic.Lib.ValueIdx
import Idealize.ShloMosaic.Lib.Affine

noncomputable section

namespace Cert.Margin.Pre

open Idealize.ShloMosaic Cert.Pre_finite_inputs

variable [Cert.Pre_finite_inputs.Facts]

instance : Subsingleton S_.Idx := ⟨fun a b => funext fun d => d.elim0⟩

/-- The word of +inf. -/
theorem inf_word : Ideal.ofBits .f32 0x7F800000#32 = ⊤ := by simp [Ideal.ofBits, Ideal.ieee]

/-- An extended real whose absolute value is below +inf is a real. -/
theorem real_of_abs_lt (v : EReal) (h : Ideal.cmp .olt (max v (-v)) (Ideal.ofBits .f32 0x7F800000#32) = 1#1) :
    ∃ r : ℝ, v = (r : EReal) := by
  rw [inf_word] at h
  induction v using EReal.rec with
  | bot => simp [Ideal.cmp] at h
  | top => simp [Ideal.cmp] at h
  | coe r => exact ⟨r, rfl⟩

/-- A word that is signed-at-least 0 and signed-below 8192 is an integer of [0, 8192). -/
theorem range_of_cmps (v : BitVec 32) (h0 : IntOp.cmpi .sge v 0#32 = 1#1) (h1 : IntOp.cmpi .slt v 8192#32 = 1#1) :
    0 ≤ v.toInt ∧ v.toInt < 8192 := by
  unfold IntOp.cmpi at h0 h1
  simp only [BitVec.sle, BitVec.slt] at h0 h1
  have e0 : (0#32 : BitVec 32).toInt = 0 := by decide
  have e1 : (8192#32 : BitVec 32).toInt = 8192 := by decide
  rw [e0] at h0
  rw [e1] at h1
  constructor
  · by_contra hc
    rw [decide_eq_false hc] at h0
    exact absurd h0 (by decide)
  · by_contra hc
    rw [decide_eq_false hc] at h1
    exact absurd h1 (by decide)

/-- THE PRECONDITION, DECODED. -/
theorem decode (x : FVec Ideal S16384x128 .f32) (y : IVec S16384 32) (W : FVec Ideal S128x8192 .f32)
    (h : Cert.Pre_finite_inputs.fn (F := Ideal) x y W = fun _ => 1#1) :
    (∀ i, ∃ r : ℝ, x i = (r : EReal)) ∧ (∀ i, ∃ r : ℝ, W i = (r : EReal))
      ∧ (∀ i, 0 ≤ (y i).toInt ∧ (y i).toInt < 8192) := by
  have h0 := congrFun h ValueIdx.ix0
  dsimp only [Cert.Pre_finite_inputs.fn] at h0
  obtain ⟨hxw, hy⟩ := IntOp.andi_eq_one.mp h0
  obtain ⟨hx, hw⟩ := IntOp.andi_eq_one.mp hxw
  refine ⟨fun i => ?_, fun i => ?_, fun i => ?_⟩
  · exact real_of_abs_lt (x i) (Host.reduce_andi_all _ _ _ _ _ hx i)
  · exact real_of_abs_lt (W i) (Host.reduce_andi_all _ _ _ _ _ hw i)
  · obtain ⟨a, b⟩ := IntOp.andi_eq_one.mp (Host.reduce_andi_all _ _ _ _ _ hy i)
    exact range_of_cmps (y i) a b

end Cert.Margin.Pre

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.MarginAlgebra.lean ====
/-
  Extended-real algebra used on both sides of the comparison.

  * The sign of an extended real written with two selects, "if |x| > 0 then (if x < 0 then -1 else 1) else x",
    is the order's sign function: -1 below zero (and at -inf), 0 at zero, 1 above zero (and at +inf).
  * For a real a and any extended real b, a + (b - a) = b: adding a correction b - a to the entry a replaces it by b.
    (This fails for infinite a, which is why the logits have to be finite.)
  * A sum over a finite index set in which only the term at one index survives is that term.
-/
import Idealize.ShloMosaic.PureOps.Ideal
import Idealize.ShloMosaic.PureOps.IdealRules

noncomputable section

namespace Cert.Margin

open Idealize.ShloMosaic

/-- The words of 0.0, 1.0 and -1.0 as extended reals. -/
theorem zero_word : Ideal.ofBits .f32 0x00000000#32 = 0 := IdealRules.sign_bit.ideal_zero .f32
theorem one_word : Ideal.ofBits .f32 0x3F800000#32 = 1 := IdealRules.sign_bit.ideal_onePat .f32
theorem neg_one_word : Ideal.ofBits .f32 0xBF800000#32 = -1 := IdealRules.sign_bit.ideal_negOnePat .f32

/-- "if |x| > 0 then (if x < 0 then -1 else 1) else x" is the sign of x, on every extended real. -/
theorem sign_by_selects (x : EReal) :
    Scalar.select (Ideal.cmp .ogt (max x (-x)) 0) (Scalar.select (Ideal.cmp .olt x 0) (-1 : EReal) 1) x = Ideal.sign x := by
  induction x using EReal.rec with
  | bot => simp [Scalar.select, Ideal.cmp]
  | top => simp [Scalar.select, Ideal.cmp]
  | coe r =>
    rcases lt_trichotomy r 0 with h | h | h
    · have h1 : (r : EReal) < 0 := by exact_mod_cast h
      have h2 : (0 : EReal) < max (r : EReal) (-(r : EReal)) := by
        apply lt_max_of_lt_right; rw [EReal.neg_pos]; exact h1
      simp [Scalar.select, Ideal.cmp, h1, h2, Ideal.sign_coe, sign_neg h]
    · subst h
      have h0 : Ideal.sign (0 : EReal) = 0 := by
        show Ideal.sign ((0 : ℝ) : EReal) = 0
        rw [Ideal.sign_coe]; simp
      simp [Scalar.select, Ideal.cmp, h0]
    · have h1 : (0 : EReal) < (r : EReal) := by exact_mod_cast h
      have h2 : (0 : EReal) < max (r : EReal) (-(r : EReal)) := lt_max_of_lt_left h1
      have h3 : ¬ ((r : EReal) < 0) := not_lt.mpr h1.le
      simp [Scalar.select, Ideal.cmp, h1, h2, h3, Ideal.sign_coe, sign_pos h]

/-- Adding b - a to a real a gives b. -/
theorem add_sub_cancel_real (a : ℝ) (b : EReal) : (a : EReal) + (b - (a : EReal)) = b := by
  induction b using EReal.rec with
  | bot => simp
  | top => simp
  | coe r => rw [← EReal.coe_sub, ← EReal.coe_add]; congr 1; ring

/-- A sum whose terms vanish off one index is the term at that index. -/
theorem sum_single {n : ℕ} (l : Fin n) (f : Fin n → EReal) (p : Fin n → Prop) [DecidablePred p] (hp : ∀ u, p u ↔ u = l) :
    ∑ u : Fin n, (if p u then f u else 0) = f l := by
  have : ∀ u, (if p u then f u else 0) = if u = l then f u else 0 := fun u => by
    by_cases h : u = l
    · rw [if_pos ((hp u).mpr h), if_pos h]
    · rw [if_neg (fun hh => h ((hp u).mp hh)), if_neg h]
  simp only [this, Finset.sum_ite_eq', Finset.mem_univ, if_true]

end Cert.Margin

end
-- ==== Proof.Spec.lean ====
/-
  The function both programs compute, as one function of the three argument arrays.

  Write x for the embeddings (16384 x 128), y for the labels (16384 words) and W for the weights (128 x 8192).
  Let What be W with every column divided by its Euclidean norm (floored at a small constant under the root),
  z = x What the 16384 x 8192 logits, and n_r = sqrt (sum_k x[r,k]^2) the norm of row r.  For row r let
  c_r = min (max y_r 0) 8191 be its label clamped into the class range, s = z[r, c_r] the logit at the label, and

      t = s / n_r,  t2 = t^2,  t4 = t2^2,  g0 = sign t,  g3 = sign (2 t2 - 1) g0,
      margin_r = (g3 (8 t4 - 8 t2 + 1) + (2 g0 + g3 - 3)) n_r

  (cos 4 theta with the monotone correction, rescaled by the row norm).  The result is z with the entry at
  (r, c_r) replaced by margin_r, in every row r.
-/
import proofs.«408463_j64055142252613_3_alg».proof.Proof.Gen.ReferenceIdeal.Read
import proofs.«408463_j64055142252613_3_alg».proof.Proof.MarginAlgebra

noncomputable section

namespace Cert.Margin

open Idealize.ShloMosaic Idealize.ShloMosaic.ValueIdx Cert.ReferenceIdeal

/-- Row r's label clamped into the class range [0, 8191]: negative words to 0, words past the end to 8191. -/
def lab (y : (⟨S16384, .i32⟩ : BufTy).Contents (Elt Ideal)) (r : Fin 16384) : Fin 8192 :=
  ⟨min (y (ix1 r)).toInt.toNat 8191, by omega⟩

/-- The margin of a row from its logit at the label s and its norm n: the formula of the header, each operation in
    the order the programs apply it. -/
def marginOf (s n : EReal) : EReal :=
  let t := Ideal.div s n
  let t2 := t * t
  let t4 := t2 * t2
  let g0 := Ideal.sign t
  let g3 := Ideal.sign (Ideal.ofBits .f32 0x40000000#32 * t2 - Ideal.ofBits .f32 0x3F800000#32) * g0
  (g3 * (Ideal.ofBits .f32 0x41000000#32 * t4 - Ideal.ofBits .f32 0x41000000#32 * t2 + Ideal.ofBits .f32 0x3F800000#32)
    + (Ideal.ofBits .f32 0x40000000#32 * g0 + g3 - Ideal.ofBits .f32 0x40400000#32)) * n

/-- The logits z = x What, as the reference's product stage. -/
abbrev logits (x : (⟨S16384x128, .f32⟩ : BufTy).Contents (Elt Ideal)) (W : (⟨S128x8192, .f32⟩ : BufTy).Contents (Elt Ideal)) :
    (⟨S16384x8192, .f32⟩ : BufTy).Contents (Elt Ideal) := Read.val_main_v9 (F := Ideal) x W

/-- The row norms, as the reference's norm stage. -/
abbrev rowNorm (x : (⟨S16384x128, .f32⟩ : BufTy).Contents (Elt Ideal)) : (⟨S16384, .f32⟩ : BufTy).Contents (Elt Ideal) :=
  Read.val_main_v0 (F := Ideal) x

/-- Row r's margin. -/
def margin (x : (⟨S16384x128, .f32⟩ : BufTy).Contents (Elt Ideal)) (y : (⟨S16384, .i32⟩ : BufTy).Contents (Elt Ideal))
    (W : (⟨S128x8192, .f32⟩ : BufTy).Contents (Elt Ideal)) (r : Fin 16384) : EReal :=
  marginOf (logits x W (ix2 r (lab y r))) (rowNorm x (ix1 r))

/-- THE RESULT: the logits with the entry at each row's clamped label replaced by the row's margin. -/
def G (x : (⟨S16384x128, .f32⟩ : BufTy).Contents (Elt Ideal)) (y : (⟨S16384, .i32⟩ : BufTy).Contents (Elt Ideal))
    (W : (⟨S128x8192, .f32⟩ : BufTy).Contents (Elt Ideal)) : (⟨S16384x8192, .f32⟩ : BufTy).Contents (Elt Ideal) :=
  fun i => if (i 1).val = (lab y (i 0)).val then margin x y W (i 0) else logits x W i

end Cert.Margin

end
-- ==== Proof.KernelPoint.lean ====
/-
  One grid point of the kernel, entry by entry.

  At a grid point the body sees a 256 x 128 block X of the embeddings, the 256 x 1 column Y of the (clamped) labels of
  those rows, and the whole normalised weight matrix V (128 x 8192).  Entry (p, u) of what it stores is

      if u = Y_p then margin_p else Z[p, u],   Z[p, u] = sum_k X[p, k] V[k, u],

  where margin_p is the margin formula at s = sum_u' (if u' = Y_p then Z[p, u'] else 0) and n = sqrt (sum_k X[p, k]^2).
  The mask "u = Y_p" compares the 32-bit word of the column number u with the label word.
-/
import proofs.«408463_j64055142252613_3_alg».proof.Proof.Gen.KernelIdeal.Frame
import proofs.«408463_j64055142252613_3_alg».proof.Proof.LibColumn
import proofs.«408463_j64055142252613_3_alg».proof.Proof.Spec
import Idealize.ShloMosaic.PureOps.Ideal.Laws
import Idealize.ShloMosaic.Lib.ValueIdx
import Idealize.ShloMosaic.Lib.Pipeline.Value

noncomputable section

namespace Cert.Margin.Point

open Idealize.ShloMosaic Idealize.ShloMosaic.ValueIdx Cert.KernelIdeal Cert.KernelIdeal.Gen

/-! ## The block product -/

theorem lhs_0 (i : S256x8192.Idx) (q : dot_S256x128_S128x8192_S256x8192_1_0_0_1_n_n.contr.Idx) :
    (dot_S256x128_S128x8192_S256x8192_1_0_0_1_n_n.lhsIdx i q 0).val = (i 0).val := by
  unfold DotDims.lhsIdx
  rw [dif_neg (show ¬(0 : Fin S256x128.rank) ∈ dot_S256x128_S128x8192_S256x8192_1_0_0_1_n_n.lhsBatch by decide), dif_pos (show (0 : Fin S256x128.rank) ∈ dot_S256x128_S128x8192_S256x8192_1_0_0_1_n_n.lhsNonContracting by decide)]
  rfl
theorem lhs_1 (i : S256x8192.Idx) (q : dot_S256x128_S128x8192_S256x8192_1_0_0_1_n_n.contr.Idx) :
    (dot_S256x128_S128x8192_S256x8192_1_0_0_1_n_n.lhsIdx i q 1).val = (q ⟨0, by decide⟩).val :=
  dot_S256x128_S128x8192_S256x8192_1_0_0_1_n_n.lhsIdx_val_of_single rfl i q
theorem rhs_0 (i : S256x8192.Idx) (q : dot_S256x128_S128x8192_S256x8192_1_0_0_1_n_n.contr.Idx) :
    (dot_S256x128_S128x8192_S256x8192_1_0_0_1_n_n.rhsIdx i q 0).val = (q ⟨0, by decide⟩).val :=
  dot_S256x128_S128x8192_S256x8192_1_0_0_1_n_n.rhsIdx_val_of_single rfl i q
theorem rhs_1 (i : S256x8192.Idx) (q : dot_S256x128_S128x8192_S256x8192_1_0_0_1_n_n.contr.Idx) :
    (dot_S256x128_S128x8192_S256x8192_1_0_0_1_n_n.rhsIdx i q 1).val = (i 1).val := by
  unfold DotDims.rhsIdx
  rw [dif_neg (show ¬(1 : Fin S128x8192.rank) ∈ dot_S256x128_S128x8192_S256x8192_1_0_0_1_n_n.rhsBatch by decide), dif_pos (show (1 : Fin S128x8192.rank) ∈ dot_S256x128_S128x8192_S256x8192_1_0_0_1_n_n.rhsNonContracting by decide)]
  rfl

/-- Z[p, u] = sum_k X[p, k] V[k, u]: the matrix product into a zero accumulator, a change of format being the identity. -/
theorem logits_at (X : Vec Ideal S256x128 .f32) (V : Vec Ideal S128x8192 .bf16) (p : Fin 256) (u : Fin 8192) :
    k0_pay2 (F := Ideal) X V (ix2 p u) = ∑ k : Fin 128, X (ix2 p k) * V (ix2 k u) := by
  unfold k0_pay2
  unfold matmul
  rw [Ideal.matmul_constant_zero_apply, ← Equiv.sum_comp (contrEquiv1 dot_S256x128_S128x8192_S256x8192_1_0_0_1_n_n 128 rfl rfl).symm]
  refine Finset.sum_congr rfl fun k _ => ?_
  have hk := contrEquiv1_symm_val dot_S256x128_S128x8192_S256x8192_1_0_0_1_n_n 128 rfl rfl k
  have el : dot_S256x128_S128x8192_S256x8192_1_0_0_1_n_n.lhsIdx (ix2 p u) ((contrEquiv1 dot_S256x128_S128x8192_S256x8192_1_0_0_1_n_n 128 rfl rfl).symm k) = ix2 p k := funext fun a => Fin.ext (by
    match a with
    | ⟨0, _⟩ => exact lhs_0 _ _
    | ⟨1, _⟩ => exact (lhs_1 _ _).trans hk)
  have er : dot_S256x128_S128x8192_S256x8192_1_0_0_1_n_n.rhsIdx (ix2 p u) ((contrEquiv1 dot_S256x128_S128x8192_S256x8192_1_0_0_1_n_n 128 rfl rfl).symm k) = ix2 k u := funext fun a => Fin.ext (by
    match a with
    | ⟨0, _⟩ => exact (rhs_0 _ _).trans hk
    | ⟨1, _⟩ => exact rhs_1 _ _)
  rw [el, er, shapeCast_self]
  rfl

/-! ## The row norm -/

/-- n_p = sqrt (sum_k X[p, k]^2), kept as a column. -/
theorem norm_at (X : Vec Ideal S256x128 .f32) (p : Fin 256) :
    k0_pay3 (F := Ideal) X (ix2 p (0 : Fin 1)) = Ideal.sqrt (∑ k : Fin 128, X (ix2 p k) * X (ix2 p k)) := by
  unfold k0_pay3
  dsimp only
  show Ideal.sqrt (shapeCast S256x1 _ _ (ix2 p (0 : Fin 1))) = _
  rw [LibColumn.shapeCast_a_a1_apply]
  refine congrArg Ideal.sqrt ((Ideal.multiReduction_add_single (mulf X X) _ _ _ _ (ix1 p)).trans ?_)
  refine Finset.sum_congr rfl fun k _ => ?_
  have e : ∀ j : S256x128.Idx, (∀ a, (j a).val = (ix2 p k a).val) → X j = X (ix2 p k) :=
    fun j hj => congrArg X (funext fun a => Fin.ext (hj a))
  show X _ * X _ = _
  rw [e _ (fun a => by match a with | ⟨0, _⟩ => rfl | ⟨1, _⟩ => rfl)]

/-! ## The mask -/

/-- The mask at (p, u): the word of the column number u against the label word of row p. -/
theorem mask_at (Y : Vec Ideal S256x1 .i32) (p : Fin 256) (u : Fin 8192) :
    k0_pay4 (F := Ideal) Y (ix2 p u) = IntOp.cmpi .eq (BitVec.ofNat 32 u.val) (Y (ix2 p (0 : Fin 1))) := by
  unfold k0_pay4
  dsimp only
  show IntOp.cmpi .eq (iota .tc S256x8192 32 [1] _ (ix2 p u)) (broadcastTo S256x8192 (shapeCast S256x1 Y _) _ (ix2 p u)) = _
  rw [LibColumn.broadcastTo_a1_ab_apply, shapeCast_self]
  show IntOp.cmpi .eq (BitVec.ofNat 32 (0 * 8192 + u.val)) _ = _
  rw [Nat.zero_mul, Nat.zero_add]

/-! ## The selected logit, the signs, and the stored entry -/

/-- A function of a rank-2 index depends only on the two coordinates. -/
theorem congr_idx2 {α : Type} {A B : ℕ} (f : (⟨2, ![A, B]⟩ : Shape).Idx → α) (j : (⟨2, ![A, B]⟩ : Shape).Idx)
    (a : Fin A) (b : Fin B) (h0 : (j 0).val = a.val) (h1 : (j 1).val = b.val) : f j = f (ix2 a b) :=
  congrArg f (funext fun d => Fin.ext (by match d with | ⟨0, _⟩ => exact h0 | ⟨1, _⟩ => exact h1))

/-- t_p = s_p / n_p, where s_p = sum_u (if u = Y_p then Z[p, u] else 0): the masked row of logits summed along the lanes. -/
theorem quotient_at (X : Vec Ideal S256x128 .f32) (V : Vec Ideal S128x8192 .bf16) (Y : Vec Ideal S256x1 .i32) (p : Fin 256) :
    k0_pay5 (F := Ideal) X V Y (ix2 p (0 : Fin 1))
      = Ideal.div (∑ u : Fin 8192, Scalar.select (k0_pay4 (F := Ideal) Y (ix2 p u)) (k0_pay2 (F := Ideal) X V (ix2 p u))
            (Ideal.ofBits .f32 0x00000000#32))
          (k0_pay3 (F := Ideal) X (ix2 p (0 : Fin 1))) := by
  unfold k0_pay5
  show Ideal.div (shapeCast S256x1 _ _ (ix2 p (0 : Fin 1))) _ = _
  rw [LibColumn.shapeCast_a_a1_apply]
  refine congrArg (Ideal.div · _) ((Ideal.multiReduction_add_single _ _ _ _ _ (ix1 p)).trans ?_)
  refine Finset.sum_congr rfl fun u _ => ?_
  show Scalar.select (k0_pay4 (F := Ideal) Y _) (k0_pay2 (F := Ideal) X V _) _ = _
  rw [congr_idx2 (k0_pay4 (F := Ideal) Y) _ p u rfl rfl, congr_idx2 (k0_pay2 (F := Ideal) X V) _ p u rfl rfl]
  rfl

/-- The sign by two selects, with 0.0, -1.0 and 1.0 as their words. -/
theorem sign_words (z : EReal) :
    Scalar.select (Ideal.cmp .ogt (max z (-z)) (Ideal.ofBits .f32 0x00000000#32))
      (Scalar.select (Ideal.cmp .olt z (Ideal.ofBits .f32 0x00000000#32)) (Ideal.ofBits .f32 0xBF800000#32) (Ideal.ofBits .f32 0x3F800000#32)) z
    = Ideal.sign z := by
  rw [zero_word, one_word, neg_one_word]
  exact sign_by_selects z

/-- g0 = sign t: the two selects over t. -/
theorem sign0_at (X : Vec Ideal S256x128 .f32) (V : Vec Ideal S128x8192 .bf16) (Y : Vec Ideal S256x1 .i32) (p : Fin 256) :
    k0_pay8 (F := Ideal) X V Y (ix2 p (0 : Fin 1)) = Ideal.sign (k0_pay5 (F := Ideal) X V Y (ix2 p (0 : Fin 1))) := by
  unfold k0_pay8
  show Scalar.select (Ideal.cmp .ogt (max (k0_pay5 (F := Ideal) X V Y (ix2 p (0 : Fin 1))) (-(k0_pay5 (F := Ideal) X V Y (ix2 p (0 : Fin 1)))))
      (Ideal.ofBits .f32 0x00000000#32))
    (Scalar.select (Ideal.cmp .olt (k0_pay5 (F := Ideal) X V Y (ix2 p (0 : Fin 1))) (Ideal.ofBits .f32 0x00000000#32))
      (Ideal.ofBits .f32 0xBF800000#32) (Ideal.ofBits .f32 0x3F800000#32))
    (k0_pay5 (F := Ideal) X V Y (ix2 p (0 : Fin 1))) = _
  exact sign_words _

/-- g3 = sign (2 t^2 - 1) g0. -/
theorem sign3_at (X : Vec Ideal S256x128 .f32) (V : Vec Ideal S128x8192 .bf16) (Y : Vec Ideal S256x1 .i32) (p : Fin 256) :
    k0_pay9 (F := Ideal) X V Y (ix2 p (0 : Fin 1))
      = Ideal.sign (Ideal.ofBits .f32 0x40000000#32 * (k0_pay5 (F := Ideal) X V Y (ix2 p (0 : Fin 1)) * k0_pay5 (F := Ideal) X V Y (ix2 p (0 : Fin 1)))
          - Ideal.ofBits .f32 0x3F800000#32)
        * Ideal.sign (k0_pay5 (F := Ideal) X V Y (ix2 p (0 : Fin 1))) := by
  unfold k0_pay9
  show Scalar.select (Ideal.cmp .ogt (max (Ideal.ofBits .f32 0x40000000#32 * k0_pay6 (F := Ideal) X V Y (ix2 p (0 : Fin 1)) - Ideal.ofBits .f32 0x3F800000#32)
        (-(Ideal.ofBits .f32 0x40000000#32 * k0_pay6 (F := Ideal) X V Y (ix2 p (0 : Fin 1)) - Ideal.ofBits .f32 0x3F800000#32)))
      (Ideal.ofBits .f32 0x00000000#32))
    (Scalar.select (Ideal.cmp .olt (Ideal.ofBits .f32 0x40000000#32 * k0_pay6 (F := Ideal) X V Y (ix2 p (0 : Fin 1)) - Ideal.ofBits .f32 0x3F800000#32) (Ideal.ofBits .f32 0x00000000#32))
      (Ideal.ofBits .f32 0xBF800000#32) (Ideal.ofBits .f32 0x3F800000#32))
    (Ideal.ofBits .f32 0x40000000#32 * k0_pay6 (F := Ideal) X V Y (ix2 p (0 : Fin 1)) - Ideal.ofBits .f32 0x3F800000#32)
    * k0_pay8 (F := Ideal) X V Y (ix2 p (0 : Fin 1)) = _
  rw [sign0_at]
  exact congrArg (· * _) (sign_words _)

/-- The origin of a whole-buffer rectangle of rank 2. -/
theorem origin2 : (![0, 0] : Fin 2 → ℕ) = fun _ => 0 := by
  funext a; match a with | ⟨0, _⟩ => rfl | ⟨1, _⟩ => rfl

/-- THE STORED ENTRY at (p, u): the margin of row p where the mask is set, the logit elsewhere. -/
theorem out_at (X : Vec Ideal S256x128 .f32) (Y : Vec Ideal S256x1 .i32) (V : Vec Ideal S128x8192 .bf16) (p : Fin 256) (u : Fin 8192) :
    out0_3 (F := Ideal) X Y V (ix2 p u)
      = Scalar.select (IntOp.cmpi .eq (BitVec.ofNat 32 u.val) (Y (ix2 p (0 : Fin 1))))
          (marginOf
            (∑ u' : Fin 8192, Scalar.select (IntOp.cmpi .eq (BitVec.ofNat 32 u'.val) (Y (ix2 p (0 : Fin 1))))
              (∑ k : Fin 128, X (ix2 p k) * V (ix2 k u')) (Ideal.ofBits .f32 0x00000000#32))
            (Ideal.sqrt (∑ k : Fin 128, X (ix2 p k) * X (ix2 p k))))
          (∑ k : Fin 128, X (ix2 p k) * V (ix2 k u)) := by
  unfold out0_3
  rw [View.canon_unit_zero origin2]
  simp only [View.ld_unit_zero (S := S256x128) origin2, View.ld_unit_zero (S := S128x8192) origin2,
    View.ld_unit_zero (S := S256x1) origin2]
  unfold k0_pay1
  show Scalar.select (k0_pay4 (F := Ideal) Y (ix2 p u)) (broadcastTo S256x8192 _ _ (ix2 p u)) (k0_pay2 (F := Ideal) X V (ix2 p u)) = _
  rw [LibColumn.broadcastTo_a1_ab_apply, shapeCast_self, mask_at, logits_at]
  refine congrArg (Scalar.select _ · _) ?_
  show (k0_pay9 (F := Ideal) X V Y (ix2 p (0 : Fin 1))
          * (Ideal.ofBits .f32 0x41000000#32 * ((k0_pay5 (F := Ideal) X V Y (ix2 p (0 : Fin 1)) * k0_pay5 (F := Ideal) X V Y (ix2 p (0 : Fin 1))) * (k0_pay5 (F := Ideal) X V Y (ix2 p (0 : Fin 1)) * k0_pay5 (F := Ideal) X V Y (ix2 p (0 : Fin 1)))) - Ideal.ofBits .f32 0x41000000#32 * (k0_pay5 (F := Ideal) X V Y (ix2 p (0 : Fin 1)) * k0_pay5 (F := Ideal) X V Y (ix2 p (0 : Fin 1))) + Ideal.ofBits .f32 0x3F800000#32)
        + (Ideal.ofBits .f32 0x40000000#32 * k0_pay8 (F := Ideal) X V Y (ix2 p (0 : Fin 1)) + k0_pay9 (F := Ideal) X V Y (ix2 p (0 : Fin 1)) - Ideal.ofBits .f32 0x40400000#32))
      * k0_pay3 (F := Ideal) X (ix2 p (0 : Fin 1)) = _
  rw [sign3_at, sign0_at, quotient_at]
  simp only [mask_at, logits_at, norm_at]
  rfl

end Cert.Margin.Point

end
-- ==== Proof.KernelRow.lean ====
/-
  One row of one grid point against the whole-array function.

  If the embeddings block holds row r of x in its row p, the label column holds row r's label clamped into [0, 8191],
  and the weight block is the normalised weight matrix, then the entry stored at (p, u) is G at (r, u): the masked
  lane sum picks the logit at the clamped label (exactly one column number u' < 8192 has the clamped label's word), the
  block's row norm is the row norm of x, and the final select is G's case distinction.
-/
import proofs.«408463_j64055142252613_3_alg».proof.Proof.KernelPoint
import Idealize.ShloMosaic.Lib.StableHlo.Predicate

noncomputable section

namespace Cert.Margin.Row

open Idealize.ShloMosaic Idealize.ShloMosaic.ValueIdx Cert.KernelIdeal Cert.KernelIdeal.Gen

/-- A label word clamped into [0, 8191] as signed integers: max with 0, then min with 8191. -/
def clip (v : BitVec 32) : BitVec 32 := IntOp.minsi 8191#32 (IntOp.maxsi 0#32 v)

/-- The clamped word's value is the label's signed value clamped. -/
theorem clip_toNat (v : BitVec 32) : (clip v).toNat = min v.toInt.toNat 8191 := by
  have e0 : (0#32 : BitVec 32).toInt = 0 := by decide
  have e1 : (8191#32 : BitVec 32).toInt = 8191 := by decide
  have n0 : (0#32 : BitVec 32).toNat = 0 := by decide
  have n1 : (8191#32 : BitVec 32).toNat = 8191 := by decide
  have ev : v.toInt = if 2 * v.toNat < 2 ^ 32 then (v.toNat : Int) else (v.toNat : Int) - 2 ^ 32 := BitVec.toInt_eq_toNat_cond v
  have hv := v.isLt
  have hmax : IntOp.maxsi 0#32 v = if v.toInt < 0 then 0#32 else v := by
    unfold IntOp.maxsi
    simp only [BitVec.slt, e0]
    by_cases h : v.toInt < 0 <;> simp [h]
  have hmin : ∀ w : BitVec 32, IntOp.minsi 8191#32 w = if 8191 < w.toInt then 8191#32 else w := by
    intro w
    unfold IntOp.minsi
    simp only [BitVec.slt, e1]
    by_cases h : 8191 < w.toInt <;> simp [h]
  unfold clip
  rw [hmax, hmin]
  by_cases h1 : v.toInt < 0
  · rw [if_pos h1, e0, if_neg (by omega), n0]
    omega
  · rw [if_neg h1]
    by_cases h2 : 8191 < v.toInt
    · rw [if_pos h2, n1]
      omega
    · rw [if_neg h2]
      split at ev <;> omega

/-- The mask bit at column u is set exactly when u is the clamped label. -/
theorem mask_iff (v : BitVec 32) (u : Fin 8192) :
    IntOp.cmpi .eq (BitVec.ofNat 32 u.val) (clip v) = 1#1 ↔ u.val = min v.toInt.toNat 8191 := by
  have hu := u.isLt
  rw [StableHlo.Predicate.cmpi_eq_iff, ← BitVec.toNat_inj, clip_toNat, BitVec.toNat_ofNat, Nat.mod_eq_of_lt (by omega)]

/-- THE ROW: the stored entry at (p, u) is G at (r, u). -/
theorem row_eq (x : (⟨Cert.ReferenceIdeal.S16384x128, .f32⟩ : BufTy).Contents (Elt Ideal))
    (y : (⟨Cert.ReferenceIdeal.S16384, .i32⟩ : BufTy).Contents (Elt Ideal))
    (W : (⟨Cert.ReferenceIdeal.S128x8192, .f32⟩ : BufTy).Contents (Elt Ideal))
    (X : Vec Ideal S256x128 .f32) (Y : Vec Ideal S256x1 .i32) (V : Vec Ideal S128x8192 .bf16)
    (r : Fin 16384) (p : Fin 256) (u : Fin 8192)
    (hX : ∀ k : Fin 128, X (ix2 p k) = x (ix2 r k))
    (hY : Y (ix2 p (0 : Fin 1)) = clip (y (ix1 r)))
    (hV : ∀ (k : Fin 128) (u' : Fin 8192), V (ix2 k u') = Cert.ReferenceIdeal.Read.val_main_v8 (F := Ideal) W (ix2 k u')) :
    out0_3 (F := Ideal) X Y V (ix2 p u) = G x y W (ix2 r u) := by
  have hlab : ∀ u' : Fin 8192, IntOp.cmpi .eq (BitVec.ofNat 32 u'.val) (Y (ix2 p (0 : Fin 1))) = 1#1 ↔ u' = lab y r := by
    intro u'
    rw [hY, mask_iff]
    constructor
    · intro h; exact Fin.ext h
    · intro h; rw [h]; rfl
  have hL : ∀ u' : Fin 8192, (∑ k : Fin 128, X (ix2 p k) * V (ix2 k u')) = logits x W (ix2 r u') := by
    intro u'
    show _ = Cert.ReferenceIdeal.Read.val_main_v9 (F := Ideal) x W (ix2 r u')
    rw [Cert.ReferenceIdeal.Read.val_main_v9_apply]
    refine Finset.sum_congr rfl fun k _ => ?_
    rw [Point.congr_idx2 x (Cert.ReferenceIdeal.Read.lidx_main_v9 (ix2 r u') k) r k rfl rfl,
      Point.congr_idx2 (Cert.ReferenceIdeal.Read.val_main_v8 (F := Ideal) W) (Cert.ReferenceIdeal.Read.ridx_main_v9 (ix2 r u') k) k u' rfl rfl,
      hX, hV]
  have hN : Ideal.sqrt (∑ k : Fin 128, X (ix2 p k) * X (ix2 p k)) = rowNorm x (ix1 r) := by
    show _ = Cert.ReferenceIdeal.Read.val_main_v0 (F := Ideal) x (ix1 r)
    rw [Cert.ReferenceIdeal.Read.val_main_v0_apply, Ideal.hostUnary_sqrt_def, Cert.ReferenceIdeal.Read.val_main_call0_v1_apply,
      Cert.ReferenceIdeal.Read.val_main_call0_cst_apply, Ideal.ofBits_def, Ideal.ofBits_zero_f32, zero_add]
    refine congrArg Ideal.sqrt (Finset.sum_congr rfl fun k _ => ?_)
    rw [Cert.ReferenceIdeal.Read.val_main_call0_v0_apply, Ideal.mulf_def,
      Point.congr_idx2 x (Cert.ReferenceIdeal.Read.idx_main_call0_v1 (ix1 r) k) r k rfl rfl, hX]
  have hS : (∑ u' : Fin 8192, Scalar.select (IntOp.cmpi .eq (BitVec.ofNat 32 u'.val) (Y (ix2 p (0 : Fin 1))))
      (∑ k : Fin 128, X (ix2 p k) * V (ix2 k u')) (Ideal.ofBits .f32 0x00000000#32)) = logits x W (ix2 r (lab y r)) := by
    simp only [hL]
    rw [zero_word]
    exact sum_single (lab y r) (fun u' => logits x W (ix2 r u'))
      (fun u' => IntOp.cmpi .eq (BitVec.ofNat 32 u'.val) (Y (ix2 p (0 : Fin 1))) = 1#1) hlab
  rw [Point.out_at, hS, hN, hL]
  unfold G
  show Scalar.select (IntOp.cmpi .eq (BitVec.ofNat 32 u.val) (Y (ix2 p (0 : Fin 1))))
      (marginOf (logits x W (ix2 r (lab y r))) (rowNorm x (ix1 r))) (logits x W (ix2 r u))
    = if u.val = (lab y r).val then margin x y W r else logits x W (ix2 r u)
  by_cases h : u = lab y r
  · rw [if_pos (congrArg Fin.val h)]
    exact (if_pos ((hlab u).mpr h)).trans rfl
  · rw [if_neg (fun hh => h (Fin.ext hh))]
    exact if_neg (fun hh => h ((hlab u).mp hh))

end Cert.Margin.Row

end
-- ==== Proof.KernelValue.lean ====
/-
  The kernel's result array is G of the argument arrays.

  Grid point t works on rows 256 t .. 256 t + 255: its embeddings block is those rows of x, its label column those
  rows' labels (already clamped by the host into [0, 8191]: max with 0, then min with 8191), its weight block the whole
  normalised weight matrix (column-normalised by the host, then a change of format, the identity over the reals), and
  it writes back rows 256 t .. 256 t + 255 of the output, all 8192 columns.  Row r lies in the block of point r / 256,
  so the 64 blocks cover the output and the array ends as G.
-/
import proofs.«408463_j64055142252613_3_alg».proof.Proof.Gen.KernelIdeal.Value
import proofs.«408463_j64055142252613_3_alg».proof.Proof.KernelRow
import Idealize.ShloMosaic.Lib.StableHlo.Run
import Idealize.ShloMosaic.Lib.Pipeline.Value

noncomputable section

namespace Cert.Margin.Kernel

open Idealize.ShloMosaic Idealize.ShloMosaic.ValueIdx Idealize.ShloMosaic.TcCoe Idealize.SL.Sem Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg)

/-- The index maps over the 64 grid points: embeddings, labels and output move down one row-block per point and stay
    in column-block 0; the weights stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 64 :=
  (by decide +kernel : ∀ t : Fin grid0.N, _)

/-! ## The arrays the region finds -/

/-- The label column as the region finds it: each label clamped into [0, 8191]. -/
theorem labels_entry (c : Dev nD) (r : Fin 16384) :
    (V m c main_v1 : S16384x1.Idx → BitVec 32) (ix2 r (0 : Fin 1)) = Row.clip (m ((c : Thread nD τ).loc main_arg1) (ix1 r)) := by
  have e : (V m c main_v1 : S16384x1.Idx → BitVec 32)
      = shapeCast S16384x1 (minsi (broadcastInDim S16384 ![] bcast_S_S16384 (constantI S_ 32 8191#32))
          (maxsi (broadcastInDim S16384 ![] bcast_S_S16384 (constantI S_ 32 0#32)) (m ((c : Thread nD τ).loc main_arg1))))
          shapeCasts_S16384_S16384x1 := by
    dsimp only [V]
    simp only [hostOps0, hostOps0_1, hostOps0_2, List.flatten_cons, List.flatten_nil, List.append_nil, List.cons_append,
      List.nil_append]
    after_results
    rfl
  rw [e, LibColumn.shapeCast_a_a1_apply]
  rfl

/-- The weight matrix as the region finds it: the normalised weights (a change of format being the identity). -/
theorem weights_entry (c : Dev nD) :
    (V m c main_v10 : S128x8192.Idx → EReal)
      = Cert.ReferenceIdeal.Read.val_main_v8 (F := Ideal) (m ((c : Thread nD τ).loc main_arg2)) := by
  dsimp only [V]
  simp only [hostOps0, hostOps0_1, hostOps0_2, List.flatten_cons, List.flatten_nil, List.append_nil, List.cons_append,
    List.nil_append]
  after_results
  rfl

/-! ## The blocks at a grid point -/

/-- The embeddings block, the label column and the weight block at point t, at their literal types. -/
abbrev xblk (c : Dev nD) (t : Fin cfg0.N) : Vec Ideal S256x128 .f32 := iblk m c 0 t
abbrev yblk (c : Dev nD) (t : Fin cfg0.N) : Vec Ideal S256x1 .i32 := iblk m c 1 t
abbrev wblk (c : Dev nD) (t : Fin cfg0.N) : Vec Ideal S128x8192 .bf16 := iblk m c 2 t

/-- Row p of the embeddings block at point t is row 256 t + p of the embeddings. -/
theorem xblk_at (c : Dev nD) (t : Fin cfg0.N) (p : Fin 256) (k : Fin 128) (h : 256 * t.val + p.val < 16384) :
    xblk m c t (ix2 p k) = m ((c : Thread nD τ).loc main_arg0) (ix2 ⟨256 * t.val + p.val, h⟩ k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 128 + 1 * k.val = k.val; omega

/-- Row p of the label column at point t is the clamped label of row 256 t + p. -/
theorem yblk_at (c : Dev nD) (t : Fin cfg0.N) (p : Fin 256) (h : 256 * t.val + p.val < 16384) :
    yblk m c t (ix2 p (0 : Fin 1)) = Row.clip (m ((c : Thread nD τ).loc main_arg1) (ix1 ⟨256 * t.val + p.val, h⟩)) := by
  obtain ⟨-, -, e2, e3, -⟩ := idx_facts t
  show V m c main_v1 (((cfg0.win 1).blk t).view.emb (ix2 p (0 : Fin 1))) = _
  have e : ((cfg0.win 1).blk t).view.emb (ix2 p (0 : Fin 1)) = ix2 ⟨256 * t.val + p.val, h⟩ (0 : Fin 1) :=
    funext fun a => Fin.ext (by
      match a with
      | ⟨0, _⟩ => show win0_1.index t (0 : Fin 2) * 256 + 1 * p.val = 256 * t.val + p.val; omega
      | ⟨1, _⟩ => show win0_1.index t (1 : Fin 2) * 1 + 1 * 0 = 0; omega)
  rw [e]
  exact labels_entry m c _

/-- The weight block at every point is the normalised weight matrix. -/
theorem wblk_at (c : Dev nD) (t : Fin cfg0.N) (k : Fin 128) (u : Fin 8192) :
    wblk m c t (ix2 k u) = Cert.ReferenceIdeal.Read.val_main_v8 (F := Ideal) (m ((c : Thread nD τ).loc main_arg2)) (ix2 k u) := by
  obtain ⟨-, -, -, -, e4, e5, -⟩ := idx_facts t
  show V m c main_v10 (((cfg0.win 2).blk t).view.emb (ix2 k u)) = _
  rw [weights_entry]
  refine congrArg _ (funext fun a => Fin.ext ?_)
  match a with
  | ⟨0, _⟩ => show win0_2.index t (0 : Fin 2) * 128 + 1 * k.val = k.val; omega
  | ⟨1, _⟩ => show win0_2.index t (1 : Fin 2) * 8192 + 1 * u.val = u.val; omega

/-! ## From the blocks to the array -/

/-- WHAT POINT t WRITES BACK is block t of G of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Cert.KernelIdeal.Value.flushed3]
  funext j
  obtain ⟨p, u, rfl⟩ : ∃ (p : Fin 256) (u : Fin 8192), j = ix2 p u := ⟨j 0, j 1, eq_ix2 j⟩
  obtain ⟨-, -, -, -, -, -, e6, e7, ht⟩ := idx_facts t
  have hr : 256 * t.val + p.val < 16384 := by have := p.isLt; omega
  show out0_3 (xblk m c t) (yblk m c t) (wblk m c t) (ix2 p u)
    = G (m ((c : Thread nD τ).loc main_arg0)) (m ((c : Thread nD τ).loc main_arg1)) (m ((c : Thread nD τ).loc main_arg2))
        (((cfg0.win 3).blk t).view.emb (ix2 p u))
  have e : ((cfg0.win 3).blk t).view.emb (ix2 p u) = ix2 ⟨256 * t.val + p.val, hr⟩ u :=
    funext fun a => Fin.ext (by
      match a with
      | ⟨0, _⟩ => show win0_3.index t (0 : Fin 2) * 256 + 1 * p.val = 256 * t.val + p.val; omega
      | ⟨1, _⟩ => show win0_3.index t (1 : Fin 2) * 8192 + 1 * u.val = u.val; omega)
  rw [e]
  exact Row.row_eq _ _ _ (xblk m c t) (yblk m c t) (wblk m c t) ⟨256 * t.val + p.val, hr⟩ p u
    (fun k => xblk_at m c t p k hr) (yblk_at m c t p hr) (fun k u' => wblk_at m c t k u')

/-- An index of the output is in point t's block iff each coordinate is in the block's range on its axis. -/
theorem mem_blk (t : Fin cfg0.N) (i : S16384x8192.Idx) :
    i ∈ ((cfg0.win 3).blk t).view.set ↔ ∀ a : Fin 2, win0_3.index t a * S256x8192.size a ≤ (i a).val
      ∧ (i a).val < win0_3.index t a * S256x8192.size a + S256x8192.size a := by
  show i ∈ ((View.whole main_v11).slice (win0_3.rect t)).set ↔ _
  rw [View.set_slice_whole, Rect.mem_set_unit]
  exact Iff.rfl

/-- Every index of the output is in the block of the point its row falls to. -/
theorem cover (i : S16384x8192.Idx) :
    ∃ t : Fin cfg0.N, (cfg0.win 3).flush t = true ∧ i ∈ ((cfg0.win 3).blk t).view.set := by
  have hi0 : (i 0).val < 16384 := (i 0).isLt
  have hi1 : (i 1).val < 8192 := (i 1).isLt
  have hN : (i 0).val / 256 < grid0.N := by rw [N_0]; omega
  obtain ⟨-, -, -, -, -, -, e6, e7, -⟩ := idx_facts ⟨(i 0).val / 256, hN⟩
  refine ⟨⟨(i 0).val / 256, hN⟩, flush0_3 _, ?_⟩
  rw [mem_blk]
  intro a
  match a with
  | ⟨0, _⟩ =>
    show win0_3.index ⟨(i 0).val / 256, hN⟩ (0 : Fin 2) * 256 ≤ (i 0).val
      ∧ (i 0).val < win0_3.index ⟨(i 0).val / 256, hN⟩ (0 : Fin 2) * 256 + 256
    rw [e6]
    show (i 0).val / 256 * 256 ≤ (i 0).val ∧ (i 0).val < (i 0).val / 256 * 256 + 256
    omega
  | ⟨1, _⟩ =>
    show win0_3.index ⟨(i 0).val / 256, hN⟩ (1 : Fin 2) * 8192 ≤ (i 1).val
      ∧ (i 1).val < win0_3.index ⟨(i 0).val / 256, hN⟩ (1 : Fin 2) * 8192 + 8192
    rw [e7]
    omega

/-- THE ARRAY after the run is G of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- THE RUN: every weakly fair execution ends with the result array at G of the arguments, the arguments unchanged. -/
theorem run : θ_run defs (onTc (τ := τ) (main (F := Ideal))) ⟨m, fun _ => 0, ρ⟩ fun r => ∀ c : Dev nD,
      r.2.mem ((c : Thread nD τ).loc main_v11)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Margin.Kernel

end
-- ==== Proof.LibPointIndex.lean ====
/-
  A point gather and a point scatter-add over a matrix, read at an index.

  The operand is an R x C matrix and the indices are an n x 2 array of (row, column) pairs.
  * The gather collapses both axes with unit slices: result j is the matrix entry at pair j, each coordinate read as a
    signed integer and clamped into the matrix (row into [0, R - 1], column into [0, C - 1]).
  * The scatter-add inserts both axes: update j is added to the entry at pair j when that pair, read signed and NOT
    clamped, lies inside the matrix, and is dropped otherwise. So the entry at i ends as its old value plus the sum of
    the updates whose pair is exactly i.
-/
import Idealize.ShloMosaic.PureOps.ShapeOps
import Idealize.ShloMosaic.PureOps.Ideal
import Idealize.ShloMosaic.Lib.ValueIdx

noncomputable section

namespace Cert.LibPointIndex

open Idealize.ShloMosaic Idealize.ShloMosaic.ValueIdx

variable {α : Type}

/-! ## The gather -/

/-- The dimension numbers of the point gather: no offset axes, both operand axes collapsed and both named by the start
    index, the pair along axis 1 of the indices, unit slices. -/
abbrev pointGatherDims (R C n : Nat)
    (wf : GatherDims.WF ⟨2, ![R, C]⟩ ⟨2, ![n, 2]⟩ ⟨1, ![n]⟩ [] [0, 1] [] [0, 1] [] 1 ![1, 1]) :
    GatherDims ⟨2, ![R, C]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

section Gather
variable {R C n w : Nat}
  (wf : GatherDims.WF ⟨2, ![R, C]⟩ ⟨2, ![n, 2]⟩ ⟨1, ![n]⟩ [] [0, 1] [] [0, 1] [] 1 ![1, 1])
  (idx : IVec ⟨2, ![n, 2]⟩ w) (j : (⟨1, ![n]⟩ : Shape).Idx)

/-- Component 0 of result j's start index sits at [j, 0] of the indices. -/
theorem gather_siIdx0 (h : (0 : Fin 2) ∈ (pointGatherDims R C n wf).startIndexMap) :
    (pointGatherDims R C n wf).siIdx j ⟨List.idxOf (0 : Fin 2) (pointGatherDims R C n wf).startIndexMap,
      List.idxOf_lt_length_iff.2 h⟩ = ix2 (j 0) (0 : Fin 2) := by
  funext b; refine Fin.ext ?_
  match b with
  | ⟨0, _⟩ => rfl
  | ⟨1, _⟩ => rfl

/-- Component 1 of result j's start index sits at [j, 1] of the indices. -/
theorem gather_siIdx1 (h : (1 : Fin 2) ∈ (pointGatherDims R C n wf).startIndexMap) :
    (pointGatherDims R C n wf).siIdx j ⟨List.idxOf (1 : Fin 2) (pointGatherDims R C n wf).startIndexMap,
      List.idxOf_lt_length_iff.2 h⟩ = ix2 (j 0) (1 : Fin 2) := by
  funext b; refine Fin.ext ?_
  match b with
  | ⟨0, _⟩ => rfl
  | ⟨1, _⟩ => rfl

/-- The row the gather reads: the row coordinate of pair j, clamped into [0, R - 1]. -/
theorem gather_start0 : (pointGatherDims R C n wf).start j idx (0 : Fin 2)
    = min (idx (ix2 (j 0) (0 : Fin 2))).toInt.toNat (R - 1) := by
  have h : (0 : Fin 2) ∈ (pointGatherDims R C n wf).startIndexMap := List.mem_cons_self
  unfold GatherDims.start
  rw [dif_pos h, gather_siIdx0 wf j h]
  rfl

/-- The column the gather reads: the column coordinate of pair j, clamped into [0, C - 1]. -/
theorem gather_start1 : (pointGatherDims R C n wf).start j idx (1 : Fin 2)
    = min (idx (ix2 (j 0) (1 : Fin 2))).toInt.toNat (C - 1) := by
  have h : (1 : Fin 2) ∈ (pointGatherDims R C n wf).startIndexMap := List.mem_cons_of_mem _ List.mem_cons_self
  unfold GatherDims.start
  rw [dif_pos h, gather_siIdx1 wf j h]
  rfl

/-- THE GATHER READ AT j: the matrix at the clamped (row, column) pair j. -/
theorem gather_point_apply (hR : 0 < R) (hC : 0 < C) (x : (⟨2, ![R, C]⟩ : Shape).Idx → α) :
    Host.gather (pointGatherDims R C n wf) x idx j
      = x (ix2 ⟨min (idx (ix2 (j 0) (0 : Fin 2))).toInt.toNat (R - 1), by omega⟩
              ⟨min (idx (ix2 (j 0) (1 : Fin 2))).toInt.toNat (C - 1), by omega⟩) := by
  unfold Host.gather
  congr 1
  funext a
  refine Fin.ext ?_
  show (pointGatherDims R C n wf).start j idx a + (pointGatherDims R C n wf).batchCoord j a
    + (pointGatherDims R C n wf).offCoord j a = _
  have hcol : a ∈ (pointGatherDims R C n wf).collapsedSliceDims := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hcol)]
  simp only [Nat.add_zero]
  match a with
  | ⟨0, _⟩ => exact gather_start0 wf idx j
  | ⟨1, _⟩ => exact gather_start1 wf idx j

end Gather

/-! ## The scatter-add -/

/-- The dimension numbers of the point scatter: no window axes, both operand axes inserted and both named by the
    scatter index, the pair along axis 1 of the indices. -/
abbrev pointScatterDims (R C n : Nat)
    (wf : ScatterDims.WF ⟨2, ![R, C]⟩ ⟨2, ![n, 2]⟩ ⟨1, ![n]⟩ [] [0, 1] [0, 1] 1) :
    ScatterDims ⟨2, ![R, C]⟩ ⟨2, ![n, 2]⟩ ⟨1, ![n]⟩ where
  updateWindowDims := []
  insertedWindowDims := [0, 1]
  scatterDimsToOperandDims := [0, 1]
  indexVectorDim := 1
  wf := wf

section Scatter
variable {R C n w : Nat}
  (wf : ScatterDims.WF ⟨2, ![R, C]⟩ ⟨2, ![n, 2]⟩ ⟨1, ![n]⟩ [] [0, 1] [0, 1] 1)
  (idx : IVec ⟨2, ![n, 2]⟩ w) (j : (⟨1, ![n]⟩ : Shape).Idx)

theorem scatter_siIdx0 (h : (0 : Fin 2) ∈ (pointScatterDims R C n wf).scatterDimsToOperandDims) :
    (pointScatterDims R C n wf).siIdx j ⟨List.idxOf (0 : Fin 2) (pointScatterDims R C n wf).scatterDimsToOperandDims,
      List.idxOf_lt_length_iff.2 h⟩ = ix2 (j 0) (0 : Fin 2) := by
  funext b; refine Fin.ext ?_
  match b with
  | ⟨0, _⟩ => rfl
  | ⟨1, _⟩ => rfl

theorem scatter_siIdx1 (h : (1 : Fin 2) ∈ (pointScatterDims R C n wf).scatterDimsToOperandDims) :
    (pointScatterDims R C n wf).siIdx j ⟨List.idxOf (1 : Fin 2) (pointScatterDims R C n wf).scatterDimsToOperandDims,
      List.idxOf_lt_length_iff.2 h⟩ = ix2 (j 0) (1 : Fin 2) := by
  funext b; refine Fin.ext ?_
  match b with
  | ⟨0, _⟩ => rfl
  | ⟨1, _⟩ => rfl

/-- The row update j aims at: the row coordinate of pair j, signed, as it is. -/
theorem scatter_start0 : (pointScatterDims R C n wf).start j idx (0 : Fin 2) = (idx (ix2 (j 0) (0 : Fin 2))).toInt := by
  have h : (0 : Fin 2) ∈ (pointScatterDims R C n wf).scatterDimsToOperandDims := List.mem_cons_self
  unfold ScatterDims.start
  rw [dif_pos h, scatter_siIdx0 wf j h]
  rfl

/-- The column update j aims at: the column coordinate of pair j, signed, as it is. -/
theorem scatter_start1 : (pointScatterDims R C n wf).start j idx (1 : Fin 2) = (idx (ix2 (j 0) (1 : Fin 2))).toInt := by
  have h : (1 : Fin 2) ∈ (pointScatterDims R C n wf).scatterDimsToOperandDims := List.mem_cons_of_mem _ List.mem_cons_self
  unfold ScatterDims.start
  rw [dif_pos h, scatter_siIdx1 wf j h]
  rfl

/-- Every operand axis is inserted, so an update has no window coordinate. -/
theorem scatter_window (a : Fin 2) : (pointScatterDims R C n wf).window j a = 0 := by
  unfold ScatterDims.window
  rw [dif_neg]
  intro h
  have : a ∉ (pointScatterDims R C n wf).insertedWindowDims := by
    simpa [ScatterDims.sKept, Shape.kept, List.mem_filter] using h
  apply this
  match a with
  | ⟨0, _⟩ => exact List.mem_cons_self
  | ⟨1, _⟩ => exact List.mem_cons_of_mem _ List.mem_cons_self

/-- Update j lands on entry i exactly when pair j, read signed, is i. -/
theorem resultIdx?_eq_some_iff (i : (⟨2, ![R, C]⟩ : Shape).Idx) :
    (pointScatterDims R C n wf).resultIdx? j idx = some i
      ↔ (idx (ix2 (j 0) (0 : Fin 2))).toInt = ((i 0).val : Int) ∧ (idx (ix2 (j 0) (1 : Fin 2))).toInt = ((i 1).val : Int) := by
  have s0 := scatter_start0 wf idx j
  have s1 := scatter_start1 wf idx j
  have w0 := scatter_window wf j (0 : Fin 2)
  have w1 := scatter_window wf j (1 : Fin 2)
  have hi0 : (i 0).val < R := (i 0).isLt
  have hi1 : (i 1).val < C := (i 1).isLt
  unfold ScatterDims.resultIdx?
  split
  · rename_i h
    rw [Option.some.injEq]
    constructor
    · intro he
      have e0 := congrArg (fun f => (f (0 : Fin 2)).val) he
      have e1 := congrArg (fun f => (f (1 : Fin 2)).val) he
      have h0 := h (0 : Fin 2)
      have h1 := h (1 : Fin 2)
      simp only at e0 e1
      rw [s0, w0] at e0 h0
      rw [s1, w1] at e1 h1
      constructor <;> omega
    · rintro ⟨e0, e1⟩
      funext a
      refine Fin.ext ?_
      match a with
      | ⟨0, _⟩ =>
        show ((pointScatterDims R C n wf).start j idx (0 : Fin 2) + ((pointScatterDims R C n wf).window j (0 : Fin 2) : Int)).toNat = (i 0).val
        rw [s0, w0, e0]; simp
      | ⟨1, _⟩ =>
        show ((pointScatterDims R C n wf).start j idx (1 : Fin 2) + ((pointScatterDims R C n wf).window j (1 : Fin 2) : Int)).toNat = (i 1).val
        rw [s1, w1, e1]; simp
  · rename_i h
    constructor
    · intro he; exact absurd he (by simp)
    · rintro ⟨e0, e1⟩
      exfalso; apply h
      intro a
      match a with
      | ⟨0, _⟩ =>
        show 0 ≤ (pointScatterDims R C n wf).start j idx (0 : Fin 2) + ((pointScatterDims R C n wf).window j (0 : Fin 2) : Int)
          ∧ (pointScatterDims R C n wf).start j idx (0 : Fin 2) + ((pointScatterDims R C n wf).window j (0 : Fin 2) : Int) < (R : Int)
        rw [s0, w0, e0]; constructor <;> omega
      | ⟨1, _⟩ =>
        show 0 ≤ (pointScatterDims R C n wf).start j idx (1 : Fin 2) + ((pointScatterDims R C n wf).window j (1 : Fin 2) : Int)
          ∧ (pointScatterDims R C n wf).start j idx (1 : Fin 2) + ((pointScatterDims R C n wf).window j (1 : Fin 2) : Int) < (C : Int)
        rw [s1, w1, e1]; constructor <;> omega

/-- THE SCATTER-ADD READ AT i, over the extended reals: the old entry plus the updates whose pair is i. -/
theorem scatterAdd_point_apply (x : (⟨2, ![R, C]⟩ : Shape).Idx → EReal) (upd : (⟨1, ![n]⟩ : Shape).Idx → EReal)
    (i : (⟨2, ![R, C]⟩ : Shape).Idx) :
    Ideal.hostScatterAdd (pointScatterDims R C n wf) x idx upd i
      = x i + ∑ j ∈ Finset.univ.filter (fun j : (⟨1, ![n]⟩ : Shape).Idx =>
          (idx (ix2 (j 0) (0 : Fin 2))).toInt = ((i 0).val : Int) ∧ (idx (ix2 (j 0) (1 : Fin 2))).toInt = ((i 1).val : Int)), upd j := by
  unfold Ideal.hostScatterAdd
  congr 1
  refine Finset.sum_congr ?_ fun _ _ => rfl
  ext j
  simp only [Finset.mem_filter, Finset.mem_univ, true_and]
  exact resultIdx?_eq_some_iff wf idx j i

end Scatter

end Cert.LibPointIndex

end
-- ==== Proof.RefPairs.lean ====
/-
  The reference's index pairs, its gather, and its margin.

  The reference indexes the logits with pairs (row, label): the row numbers 0 .. 16383 and the labels, each wrapped
  (a negative index counts from the end).  A row number is never negative and a label in the class range is not
  negative either, so under the precondition the pairs are (r, y_r) as they stand.  The gather then reads z[r, y_r],
  which is z at the clamped label, and the margin stage is the margin formula at that logit and the row's norm.
-/
import proofs.«408463_j64055142252613_3_alg».proof.Proof.Spec
import proofs.«408463_j64055142252613_3_alg».proof.Proof.LibPointIndex
import Idealize.ShloMosaic.Lib.StableHlo.Predicate
import Idealize.ShloMosaic.Lib.Pipeline.Value

noncomputable section

namespace Cert.Margin.Ref

open Idealize.ShloMosaic Idealize.ShloMosaic.ValueIdx Cert.ReferenceIdeal Cert.ReferenceIdeal.Read

/-- A word that is not negative is not signed-below zero. -/
theorem not_slt_zero (v : BitVec 32) (h : 0 ≤ v.toInt) : IntOp.cmpi .slt v 0#32 = 0#1 := by
  unfold IntOp.cmpi
  simp only [BitVec.slt]
  have e0 : (0#32 : BitVec 32).toInt = 0 := by decide
  rw [e0, decide_eq_false (not_lt.mpr h)]
  rfl

/-- The gather index array's row words: a row number is not negative, so it is its own wrap. -/
theorem row_word_gather (i : S16384.Idx) : val_main_v15 (F := Ideal) i = BitVec.ofNat 32 (i 0).val := by
  have hi : (i 0).val < 16384 := (i 0).isLt
  have hs : IntOp.cmpi .slt (BitVec.ofNat 32 (i 0).val) 0#32 = 0#1 :=
    not_slt_zero _ (by rw [StableHlo.Predicate.toInt_ofNat_small _ (by omega)]; omega)
  show Scalar.select (IntOp.cmpi .slt (BitVec.ofNat 32 (i 0).val) 0#32) _ (BitVec.ofNat 32 (i 0).val) = _
  rw [hs]
  exact if_neg (by decide)

/-- The gather index array's label words: a label that is not negative is its own wrap. -/
theorem col_word_gather (y : (⟨S16384, .i32⟩ : BufTy).Contents (Elt Ideal)) (i : S16384.Idx) (h0 : 0 ≤ (y i).toInt) :
    val_main_v20 (F := Ideal) y i = y i := by
  show Scalar.select (IntOp.cmpi .slt (y i) 0#32) _ (y i) = _
  rw [not_slt_zero _ h0]
  exact if_neg (by decide)

/-- Column 0 of the gather pairs is the row's own number. -/
theorem gather_row (y : (⟨S16384, .i32⟩ : BufTy).Contents (Elt Ideal)) (r : Fin 16384) :
    val_main_v23 (F := Ideal) y (ix2 r (0 : Fin 2)) = BitVec.ofNat 32 r.val := by
  unfold val_main_v23
  refine (concatenate_pair_apply_left (s₁ := S16384x1) (s₂ := S16384x1) _ _ _ _ (ix2 r (0 : Fin 2)) rfl (ix2 r (0 : Fin 1))
    (fun b => by match b with | ⟨0, _⟩ => rfl | ⟨1, _⟩ => rfl)).trans ?_
  rw [val_main_v21_apply]
  exact row_word_gather _

/-- Column 1 of the gather pairs is the row's label. -/
theorem gather_col (y : (⟨S16384, .i32⟩ : BufTy).Contents (Elt Ideal)) (r : Fin 16384) (h0 : 0 ≤ (y (ix1 r)).toInt) :
    val_main_v23 (F := Ideal) y (ix2 r (1 : Fin 2)) = y (ix1 r) := by
  unfold val_main_v23
  refine (concatenate_pair_apply_right (s₁ := S16384x1) (s₂ := S16384x1) _ _ _ _ (ix2 r (1 : Fin 2)) rfl rfl (ix2 r (0 : Fin 1))
    (fun b hb => by
      match b with
      | ⟨0, _⟩ => rfl
      | ⟨1, _⟩ => exact absurd rfl hb) rfl).trans ?_
  rw [val_main_v22_apply]
  have e : idx_main_v22 (ix2 r (0 : Fin 1)) = ix1 r := funext fun a => Fin.ext (by match a with | ⟨0, _⟩ => rfl)
  rw [e]
  exact col_word_gather y (ix1 r) h0

/-- The scatter index array's row words: a row number is not negative, so it is its own wrap. -/
theorem row_word_scatter (i : S16384.Idx) : val_main_v55 (F := Ideal) i = BitVec.ofNat 32 (i 0).val := by
  have hi : (i 0).val < 16384 := (i 0).isLt
  have hs : IntOp.cmpi .slt (BitVec.ofNat 32 (i 0).val) 0#32 = 0#1 :=
    not_slt_zero _ (by rw [StableHlo.Predicate.toInt_ofNat_small _ (by omega)]; omega)
  show Scalar.select (IntOp.cmpi .slt (BitVec.ofNat 32 (i 0).val) 0#32) _ (BitVec.ofNat 32 (i 0).val) = _
  rw [hs]
  exact if_neg (by decide)

/-- The scatter index array's label words: a label that is not negative is its own wrap. -/
theorem col_word_scatter (y : (⟨S16384, .i32⟩ : BufTy).Contents (Elt Ideal)) (i : S16384.Idx) (h0 : 0 ≤ (y i).toInt) :
    val_main_v60 (F := Ideal) y i = y i := by
  show Scalar.select (IntOp.cmpi .slt (y i) 0#32) _ (y i) = _
  rw [not_slt_zero _ h0]
  exact if_neg (by decide)

/-- Column 0 of the scatter pairs is the row's own number. -/
theorem scatter_row (y : (⟨S16384, .i32⟩ : BufTy).Contents (Elt Ideal)) (r : Fin 16384) :
    val_main_v63 (F := Ideal) y (ix2 r (0 : Fin 2)) = BitVec.ofNat 32 r.val := by
  unfold val_main_v63
  refine (concatenate_pair_apply_left (s₁ := S16384x1) (s₂ := S16384x1) _ _ _ _ (ix2 r (0 : Fin 2)) rfl (ix2 r (0 : Fin 1))
    (fun b => by match b with | ⟨0, _⟩ => rfl | ⟨1, _⟩ => rfl)).trans ?_
  rw [val_main_v61_apply]
  exact row_word_scatter _

/-- Column 1 of the scatter pairs is the row's label. -/
theorem scatter_col (y : (⟨S16384, .i32⟩ : BufTy).Contents (Elt Ideal)) (r : Fin 16384) (h0 : 0 ≤ (y (ix1 r)).toInt) :
    val_main_v63 (F := Ideal) y (ix2 r (1 : Fin 2)) = y (ix1 r) := by
  unfold val_main_v63
  refine (concatenate_pair_apply_right (s₁ := S16384x1) (s₂ := S16384x1) _ _ _ _ (ix2 r (1 : Fin 2)) rfl rfl (ix2 r (0 : Fin 1))
    (fun b hb => by
      match b with
      | ⟨0, _⟩ => rfl
      | ⟨1, _⟩ => exact absurd rfl hb) rfl).trans ?_
  rw [val_main_v62_apply]
  have e : idx_main_v62 (ix2 r (0 : Fin 1)) = ix1 r := funext fun a => Fin.ext (by match a with | ⟨0, _⟩ => rfl)
  rw [e]
  exact col_word_scatter y (ix1 r) h0

/-- The reference's gather is the point gather of the library. -/
theorem gather_dims_eq : gather_S16384x8192_S16384x2_S16384_n_01_n_n_01_1_11
    = LibPointIndex.pointGatherDims 16384 8192 16384 gather_S16384x8192_S16384x2_S16384_n_01_n_n_01_1_11.wf := rfl

/-- In range, the clamped label is the label. -/
theorem lab_val (y : (⟨S16384, .i32⟩ : BufTy).Contents (Elt Ideal)) (r : Fin 16384)
    (hy : 0 ≤ (y (ix1 r)).toInt ∧ (y (ix1 r)).toInt < 8192) : ((lab y r).val : Int) = (y (ix1 r)).toInt := by
  unfold lab
  show ((min (y (ix1 r)).toInt.toNat 8191 : ℕ) : Int) = _
  omega

/-- THE GATHER at row r: the logit at the row's label. -/
theorem selected_eq (x : (⟨S16384x128, .f32⟩ : BufTy).Contents (Elt Ideal)) (y : (⟨S16384, .i32⟩ : BufTy).Contents (Elt Ideal))
    (W : (⟨S128x8192, .f32⟩ : BufTy).Contents (Elt Ideal)) (r : Fin 16384)
    (hy : 0 ≤ (y (ix1 r)).toInt ∧ (y (ix1 r)).toInt < 8192) :
    val_main_v24 (F := Ideal) x y W (ix1 r) = logits x W (ix2 r (lab y r)) := by
  unfold val_main_v24
  refine (LibPointIndex.gather_point_apply (R := 16384) (C := 8192) (n := 16384)
    gather_S16384x8192_S16384x2_S16384_n_01_n_n_01_1_11.wf (val_main_v23 (F := Ideal) y) (ix1 r) (by decide) (by decide)
    (val_main_v9 (F := Ideal) x W)).trans ?_
  refine congrArg (val_main_v9 (F := Ideal) x W) (funext fun a => Fin.ext ?_)
  match a with
  | ⟨0, _⟩ =>
    show min (val_main_v23 (F := Ideal) y (ix2 r (0 : Fin 2))).toInt.toNat (16384 - 1) = r.val
    rw [gather_row, StableHlo.Predicate.toInt_ofNat_small _ (by have := r.isLt; omega)]
    have := r.isLt
    omega
  | ⟨1, _⟩ =>
    show min (val_main_v23 (F := Ideal) y (ix2 r (1 : Fin 2))).toInt.toNat (8192 - 1) = (lab y r).val
    rw [gather_col y r hy.1]
    rfl

/-- THE MARGIN STAGE at row r is the margin formula at the selected logit and the row's norm. -/
theorem margin_eq (x : (⟨S16384x128, .f32⟩ : BufTy).Contents (Elt Ideal)) (y : (⟨S16384, .i32⟩ : BufTy).Contents (Elt Ideal))
    (W : (⟨S128x8192, .f32⟩ : BufTy).Contents (Elt Ideal)) (r : Fin 16384)
    (hy : 0 ≤ (y (ix1 r)).toInt ∧ (y (ix1 r)).toInt < 8192) :
    val_main_v49 (F := Ideal) x y W (ix1 r) = margin x y W r := by
  unfold margin marginOf
  rw [← selected_eq x y W r hy]
  simp only [val_main_v49_apply, val_main_v48_apply, val_main_v47_apply, val_main_v46_apply, val_main_v45_apply,
    val_main_v44_apply, val_main_v43_apply, val_main_v42_apply, val_main_v41_apply, val_main_v40_apply, val_main_v39_apply,
    val_main_v38_apply, val_main_v37_apply, val_main_v36_apply, val_main_v35_apply, val_main_v34_apply, val_main_v33_apply,
    val_main_v32_apply, val_main_v31_apply, val_main_v30_apply, val_main_v29_apply, val_main_v28_apply, val_main_v27_apply,
    val_main_v26_apply, val_main_v25_apply, val_main_cst_4_apply, val_main_cst_5_apply, val_main_cst_6_apply,
    val_main_cst_7_apply, val_main_cst_8_apply, val_main_cst_9_apply, val_main_cst_10_apply, Ideal.mulf_def, Ideal.addf_def,
    Ideal.subf_def, Ideal.hostDivf_def, Ideal.hostUnary_sign_def, Ideal.ofBits_def]

end Cert.Margin.Ref

end
-- ==== Proof.RefFinite.lean ====
/-
  Finite inputs give finite logits.

  A column's squared norm is a sum of squares of reals, so a real >= 0; floored at a positive real constant it is a
  positive real, whose inverse square root is a real.  So every normalised weight is a real, and every logit, a finite
  sum of products of reals, is a real.
-/
import proofs.«408463_j64055142252613_3_alg».proof.Proof.Spec
import Idealize.ShloMosaic.PureOps.Ideal.Laws

noncomputable section

namespace Cert.Margin.Ref

open Idealize.ShloMosaic Idealize.ShloMosaic.ValueIdx Cert.ReferenceIdeal Cert.ReferenceIdeal.Read

/-- The floor under the root is a positive real. -/
theorem floor_real : ∃ r : ℝ, 0 < r ∧ Ideal.ofBits .f32 0x2B8CBCCC#32 = (r : EReal) := by
  show ∃ r : ℝ, 0 < r ∧ Ideal.ieee 8 23 (0x2B8CBCCC#32 : BitVec 32) = (r : EReal)
  unfold Ideal.ieee
  have hn : ((0x2B8CBCCC#32 : BitVec 32).extractLsb' (8 + 23) 1 == 1#1) = false := by decide
  have he : ¬ ((0x2B8CBCCC#32 : BitVec 32).extractLsb' 23 8).toNat = 2 ^ 8 - 1 := by decide
  have h0 : ¬ ((0x2B8CBCCC#32 : BitVec 32).extractLsb' 23 8).toNat = 0 := by decide
  simp only [hn, if_neg he, if_neg h0, Bool.false_eq_true, if_false]
  exact ⟨_, by positivity, rfl⟩

/-- A finite sum of reals is a real. -/
theorem sum_real {ι : Type} (s : Finset ι) (f : ι → EReal) (h : ∀ i, ∃ r : ℝ, f i = (r : EReal)) :
    ∃ r : ℝ, ∑ i ∈ s, f i = (r : EReal) := by
  classical
  choose g hg using h
  refine ⟨∑ i ∈ s, g i, ?_⟩
  simp only [hg]
  induction s using Finset.induction_on with
  | empty => simp
  | insert a s ha ih => rw [Finset.sum_insert ha, Finset.sum_insert ha, ih, EReal.coe_add]

/-- The inverse square root of a positive real is a real. -/
theorem rsqrt_real {r : ℝ} (hr : 0 < r) : ∃ q : ℝ, Ideal.rsqrt (r : EReal) = (q : EReal) := by
  refine ⟨(Real.sqrt r)⁻¹, ?_⟩
  rw [Ideal.rsqrt_coe, if_neg (not_lt.mpr hr.le), if_neg hr.ne']

/-- Every normalised weight is a real. -/
theorem weights_real (W : (⟨S128x8192, .f32⟩ : BufTy).Contents (Elt Ideal)) (hW : ∀ i, ∃ r : ℝ, W i = (r : EReal))
    (i : S128x8192.Idx) : ∃ r : ℝ, val_main_v8 (F := Ideal) W i = (r : EReal) := by
  obtain ⟨w, hw⟩ := hW i
  -- the column's squared norm
  obtain ⟨q, hq⟩ : ∃ q : ℝ, 0 ≤ q ∧ val_main_v2 (F := Ideal) W (idx_main_v3 (idx_main_v7 i)) = (q : EReal) := by
    rw [val_main_v2_apply]
    choose g hg using hW
    refine ⟨∑ k : Fin 128, g (idx_main_v2 (idx_main_v3 (idx_main_v7 i)) k) * g (idx_main_v2 (idx_main_v3 (idx_main_v7 i)) k),
      Finset.sum_nonneg fun k _ => mul_self_nonneg _, ?_⟩
    rw [val_main_cst_apply, Ideal.ofBits_def, Ideal.ofBits_zero_f32, zero_add]
    simp only [val_main_v1_apply, Ideal.mulf_def, hg, ← EReal.coe_mul]
    induction (Finset.univ : Finset (Fin 128)) using Finset.induction_on with
    | empty => simp
    | insert a s ha ih => rw [Finset.sum_insert ha, Finset.sum_insert ha, ih, EReal.coe_add]
  obtain ⟨e, he, hee⟩ := floor_real
  obtain ⟨s, hs⟩ : ∃ s : ℝ, val_main_v7 (F := Ideal) W i = (s : EReal) := by
    rw [val_main_v7_apply, val_main_v6_apply, Ideal.hostUnary_rsqrt_def, val_main_v5_apply, Ideal.maximumf_def,
      val_main_v3_apply, val_main_v4_apply, val_main_cst_0_apply, Ideal.ofBits_def, hq.2, hee]
    have hm : max (q : EReal) (e : EReal) = ((max q e : ℝ) : EReal) := (EReal.coe_strictMono.monotone.map_max).symm
    rw [hm]
    exact rsqrt_real (lt_max_of_lt_right he)
  exact ⟨w * s, by rw [val_main_v8_apply, Ideal.mulf_def, hw, hs, EReal.coe_mul]⟩

/-- Every logit is a real. -/
theorem logits_real (x : (⟨S16384x128, .f32⟩ : BufTy).Contents (Elt Ideal)) (W : (⟨S128x8192, .f32⟩ : BufTy).Contents (Elt Ideal))
    (hx : ∀ i, ∃ r : ℝ, x i = (r : EReal)) (hW : ∀ i, ∃ r : ℝ, W i = (r : EReal)) (i : S16384x8192.Idx) :
    ∃ r : ℝ, logits x W i = (r : EReal) := by
  show ∃ r : ℝ, val_main_v9 (F := Ideal) x W i = (r : EReal)
  rw [val_main_v9_apply]
  refine sum_real _ _ fun k => ?_
  obtain ⟨a, ha⟩ := hx (lidx_main_v9 i k)
  obtain ⟨b, hb⟩ := weights_real W hW (ridx_main_v9 i k)
  exact ⟨a * b, by rw [ha, hb, EReal.coe_mul]⟩

end Cert.Margin.Ref

end
-- ==== Proof.RefValue.lean ====
/-
  The reference's result is G of the argument arrays, under the precondition.

  The scatter adds margin_r - z[r, y_r] to the entry (r, y_r) of the logits, for every row r.  The pairs (r, y_r) have
  distinct rows, so entry (r, u) receives row r's update when u = y_r and nothing otherwise; with z[r, y_r] a real,
  z[r, y_r] + (margin_r - z[r, y_r]) = margin_r.  The closing 0 * z + 1 * (scattered z) is the scattered z, the logits
  being reals.
-/
import proofs.«408463_j64055142252613_3_alg».proof.Proof.RefPairs
import proofs.«408463_j64055142252613_3_alg».proof.Proof.RefFinite

noncomputable section

namespace Cert.Margin.Ref

open Idealize.ShloMosaic Idealize.ShloMosaic.ValueIdx Cert.ReferenceIdeal Cert.ReferenceIdeal.Read

/-- Row r's update aims at entry (a, b) exactly when r is a and b is row a's label. -/
theorem pair_iff (y : (⟨S16384, .i32⟩ : BufTy).Contents (Elt Ideal)) (hy : ∀ i, 0 ≤ (y i).toInt ∧ (y i).toInt < 8192)
    (a : Fin 16384) (b : Fin 8192) (r : Fin 16384) :
    ((val_main_v63 (F := Ideal) y (ix2 r (0 : Fin 2))).toInt = (a.val : Int)
        ∧ (val_main_v63 (F := Ideal) y (ix2 r (1 : Fin 2))).toInt = (b.val : Int))
      ↔ r = a ∧ b.val = (lab y a).val := by
  have hr : r.val < 16384 := r.isLt
  rw [scatter_row, scatter_col y r (hy _).1, StableHlo.Predicate.toInt_ofNat_small _ (by omega)]
  constructor
  · rintro ⟨h1, h2⟩
    have e : r = a := Fin.ext (by exact_mod_cast h1)
    subst e
    have := lab_val y r (hy _)
    exact ⟨rfl, by omega⟩
  · rintro ⟨rfl, h2⟩
    have := lab_val y r (hy _)
    exact ⟨rfl, by omega⟩

/-- THE SCATTER-ADD at (a, b): the logit, plus row a's update where b is that row's label. -/
theorem scatter_eq (x : (⟨S16384x128, .f32⟩ : BufTy).Contents (Elt Ideal)) (y : (⟨S16384, .i32⟩ : BufTy).Contents (Elt Ideal))
    (W : (⟨S128x8192, .f32⟩ : BufTy).Contents (Elt Ideal)) (hy : ∀ i, 0 ≤ (y i).toInt ∧ (y i).toInt < 8192)
    (a : Fin 16384) (b : Fin 8192) :
    val_main_v64 (F := Ideal) x y W (ix2 a b)
      = logits x W (ix2 a b) + (if b.val = (lab y a).val then val_main_v50 (F := Ideal) x y W (ix1 a) else 0) := by
  unfold val_main_v64
  refine (LibPointIndex.scatterAdd_point_apply (R := 16384) (C := 8192) (n := 16384)
    scatter_S16384x8192_S16384x2_S16384_n_01_01_1.wf (val_main_v63 (F := Ideal) y) (val_main_v9 (F := Ideal) x W)
    (val_main_v50 (F := Ideal) x y W) (ix2 a b)).trans ?_
  refine congrArg (logits x W (ix2 a b) + ·) ?_
  by_cases h : b.val = (lab y a).val
  · rw [if_pos h]
    refine Finset.sum_eq_single_of_mem (ix1 a) (Finset.mem_filter.mpr ⟨Finset.mem_univ _, (pair_iff y hy a b a).mpr ⟨rfl, h⟩⟩)
      (fun j hj hne => ?_)
    exact absurd ((eq_ix1 j).trans (congrArg ix1 ((pair_iff y hy a b (j 0)).mp (Finset.mem_filter.mp hj).2).1)) hne
  · rw [if_neg h]
    exact Finset.sum_eq_zero fun j hj => absurd ((pair_iff y hy a b (j 0)).mp (Finset.mem_filter.mp hj).2).2 h

/-- THE REFERENCE'S RESULT is G. -/
theorem ref_eq (x : (⟨S16384x128, .f32⟩ : BufTy).Contents (Elt Ideal)) (y : (⟨S16384, .i32⟩ : BufTy).Contents (Elt Ideal))
    (W : (⟨S128x8192, .f32⟩ : BufTy).Contents (Elt Ideal))
    (hx : ∀ i, ∃ r : ℝ, x i = (r : EReal)) (hW : ∀ i, ∃ r : ℝ, W i = (r : EReal))
    (hy : ∀ i, 0 ≤ (y i).toInt ∧ (y i).toInt < 8192) :
    val_main_v69 (F := Ideal) x y W = G x y W := by
  funext i
  obtain ⟨a, b, rfl⟩ : ∃ (a : Fin 16384) (b : Fin 8192), i = ix2 a b := ⟨i 0, i 1, eq_ix2 i⟩
  obtain ⟨l, hl⟩ := logits_real x W hx hW (ix2 a b)
  have hr := hy (ix1 a)
  rw [val_main_v69_apply, val_main_v66_apply, val_main_v68_apply, val_main_v65_apply, val_main_v67_apply,
    val_main_cst_15_apply, val_main_cst_16_apply]
  simp only [Ideal.addf_def, Ideal.mulf_def, Ideal.ofBits_def]
  rw [zero_word, one_word, scatter_eq x y W hy a b]
  unfold G
  show 0 * logits x W (ix2 a b) + 1 * (logits x W (ix2 a b)
      + if b.val = (lab y a).val then val_main_v50 (F := Ideal) x y W (ix1 a) else 0)
    = if b.val = (lab y a).val then margin x y W a else logits x W (ix2 a b)
  by_cases h : b.val = (lab y a).val
  · rw [if_pos h, if_pos h, val_main_v50_apply, Ideal.subf_def, margin_eq x y W a hr, selected_eq x y W a hr]
    have hb : lab y a = b := (Fin.ext h).symm
    rw [hb, hl, zero_mul, zero_add, one_mul]
    exact add_sub_cancel_real l _
  · rw [if_neg h, if_neg h, add_zero, hl, zero_mul, zero_add, one_mul]

end Cert.Margin.Ref

end
-- ==== Proof.lean ====
/-
  Margin logits: a row-tiled kernel against its array-level reference, over the extended reals.

  Inputs: embeddings x (16384 x 128), labels y (16384 integers), weights W (128 x 8192); precondition: every x and W
  entry is a real and every label lies in the class range 0 <= y_r < 8192.  Both programs normalise the columns of W,
  form the logits z = x What, and in each row r replace the entry at the row's label by the row's margin
  (cos 4 theta with the monotone correction, rescaled by the row's norm, computed from z[r, y_r] and the norm of x_r).

  The kernel clamps the labels into [0, 8191] and, per block of 256 rows, finds z[r, y_r] as the sum over the lanes of
  the logits masked by "column = label", then writes the margin through the same mask.  The reference gathers
  z[r, y_r], scatter-adds margin_r - z[r, y_r] at (r, y_r), and returns 0 * z + 1 * (the scattered z).  Both are the
  one function G of the three arrays (Spec): on the kernel side block by block, the 64 blocks covering the output
  (KernelPoint, KernelRow, KernelValue); on the reference side because in-range labels are their own wrap and clamp,
  each entry receives at most its own row's update, and a real a satisfies a + (b - a) = b (RefPairs, RefFinite,
  RefValue).  The kernel's sign is written with two selects over an order comparison; that it is the sign function is
  MarginAlgebra, and that the selects stand for the kernel's sign-bit arithmetic is the idealization's own statement.
-/
import proofs.«408463_j64055142252613_3_alg».proof.Defs
import proofs.«408463_j64055142252613_3_alg».proof.Proof.Gen.Kernel
import proofs.«408463_j64055142252613_3_alg».proof.Proof.Gen.Kernel.Skeleton
import proofs.«408463_j64055142252613_3_alg».proof.Proof.Gen.Kernel.Launch
import proofs.«408463_j64055142252613_3_alg».proof.Proof.Gen.Kernel.Points
import proofs.«408463_j64055142252613_3_alg».proof.Proof.Gen.Kernel.Frame
import proofs.«408463_j64055142252613_3_alg».proof.Proof.Gen.KernelIdeal
import proofs.«408463_j64055142252613_3_alg».proof.Proof.Gen.KernelIdeal.Skeleton
import proofs.«408463_j64055142252613_3_alg».proof.Proof.Gen.KernelIdeal.Launch
import proofs.«408463_j64055142252613_3_alg».proof.Proof.Gen.KernelIdeal.Points
import proofs.«408463_j64055142252613_3_alg».proof.Proof.Gen.KernelIdeal.Frame
import proofs.«408463_j64055142252613_3_alg».proof.Proof.Gen.ReferenceIdeal
import proofs.«408463_j64055142252613_3_alg».proof.Proof.Gen.Pre_finite_inputs
import proofs.«408463_j64055142252613_3_alg».proof.Proof.Gen.KernelIdeal.Value
import proofs.«408463_j64055142252613_3_alg».proof.Proof.Gen.ReferenceIdeal.Run
import proofs.«408463_j64055142252613_3_alg».proof.Proof.Gen.ReferenceIdeal.Read
import proofs.«408463_j64055142252613_3_alg».proof.Proof.Pre
import proofs.«408463_j64055142252613_3_alg».proof.Proof.KernelValue
import proofs.«408463_j64055142252613_3_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two places where 1.0 takes a value's sign bit: each is the select over "value < 0" between -1 and 1. -/
theorem preserves : Cert.preserves_Kernel_KernelIdeal :=
  ⟨IdealRules.sign_bit.statement Cert.KernelIdeal.S256x1 .f32, IdealRules.sign_bit.statement Cert.KernelIdeal.S256x1 .f32⟩

/-- Over the extended reals both programs end with G of the (agreeing) argument arrays. -/
theorem algebraic : Cert.algebraic_KernelIdeal_ReferenceIdeal := by
  intro m ρ m' ρ' hpre hagree
  refine ⟨_, Cert.Margin.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, (hagree c).1, (hagree c).2.1, (hagree c).2.2]
  obtain ⟨hx, hW, hy⟩ := Cert.Margin.Pre.decode _ _ _ (hpre c)
  exact Cert.Margin.Ref.ref_eq _ _ _ hx hW hy

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
